-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S1024x1024 : Shape := ⟨2, ![1024, 1024]⟩
abbrev S1024x2048 : Shape := ⟨2, ![1024, 2048]⟩
abbrev S2048x4096 : Shape := ⟨2, ![2048, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  main_v18

def fn {F : FTy → Type} [FloatOps F] (main_arg0 : FVec F S4x4096x4096 .f32) (main_arg1 : FVec F S1024x1024 .f32) (main_arg2 : FVec F S1024x2048 .f32) (main_arg3 : FVec F S2048x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_v13 main_v16
-- ==== Kernel.lean ====
abbrev S4x4096x4096 : Shape := ⟨3, ![4, 4096, 4096]⟩
abbrev S1024x1024 : Shape := ⟨2, ![1024, 1024]⟩
abbrev S1024x2048 : Shape := ⟨2, ![1024, 2048]⟩
abbrev S2048x4096 : Shape := ⟨2, ![2048, 4096]⟩
abbrev S1x128x4096 : Shape := ⟨3, ![1, 128, 4096]⟩
abbrev S128x4096 : Shape := ⟨2, ![128, 4096]⟩
abbrev S128x1024 : Shape := ⟨2, ![128, 1024]⟩
abbrev S128x2048 : Shape := ⟨2, ![128, 2048]⟩
abbrev S1x128x1024 : Shape := ⟨3, ![1, 128, 1024]⟩
abbrev S1x128x2048 : Shape := ⟨3, ![1, 128, 2048]⟩

abbrev nBuf : Space → Nat
  | .hbm => 8
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S1024x1024, .f32⟩
  | .hbm, ⟨2, _⟩ => ⟨S1024x2048, .f32⟩
  | .hbm, ⟨3, _⟩ => ⟨S2048x4096, .f32⟩
  | .hbm, ⟨4, _⟩ => ⟨S1024x1024, .bf16⟩
  | .hbm, ⟨5, _⟩ => ⟨S1024x2048, .bf16⟩
  | .hbm, ⟨6, _⟩ => ⟨S2048x4096, .bf16⟩
  | .hbm, ⟨7, _⟩ => ⟨S4x4096x4096, .f32⟩
  | .local _ .vmem, ⟨0, _⟩ => ⟨S1x128x4096, .f32⟩
  | .local _ .vmem, ⟨1, _⟩ => ⟨S1x128x4096, .f32⟩
  | .local _ .vmem, ⟨2, _⟩ => ⟨S1024x1024, .bf16⟩
  | .local _ .vmem, ⟨3, _⟩ => ⟨S1024x2048, .bf16⟩
  | .local _ .vmem, ⟨4, _⟩ => ⟨S2048x4096, .bf16⟩
  | .local _ .vmem, ⟨5, _⟩ => ⟨S1x128x4096, .f32⟩
  | .local _ .vmem, ⟨6, _⟩ => ⟨S1x128x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  slices_S128x4096_o0_0_S128x1024 : S128x4096.Slices ![0, 0] S128x1024
  slices_S128x4096_o0_0_S128x2048 : S128x4096.Slices ![0, 0] S128x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x128x4096_S1x128x1024_0_0_0 : ∀ a, (![0, 0, 0] : Fin 3 → Nat) a + S1x128x1024.size a ≤ S1x128x4096.size a
  h_S1x128x1024 : 0 < S1x128x1024.numel
  shapeCasts_S1x128x1024_S128x1024 : S1x128x1024.ShapeCasts S128x1024
  shapeCasts_S128x1024_S1x128x1024 : S128x1024.ShapeCasts S1x128x1024
  inb_S1x128x4096_S1x128x1024_0_0_1024 : ∀ a, (![0, 0, 1024] : Fin 3 → Nat) a + S1x128x1024.size a ≤ S1x128x4096.size a
  inb_S1x128x4096_S1x128x2048_0_0_2048 : ∀ a, (![0, 0, 2048] : Fin 3 → Nat) a + S1x128x2048.size a ≤ S1x128x4096.size a
  h_S1x128x2048 : 0 < S1x128x2048.numel
  shapeCasts_S1x128x2048_S128x2048 : S1x128x2048.ShapeCasts S128x2048
  shapeCasts_S128x2048_S1x128x2048 : S128x2048.ShapeCasts S1x128x2048
  dot_S128x1024_S1024x1024_S128x1024_1_1_0_0_n_n_wf : DotDims.WF S128x1024 S1024x1024 S128x1024 [1] [1] [0] [0] [] []
  dot_S128x2048_S1024x2048_S128x1024_1_1_0_0_n_n_wf : DotDims.WF S128x2048 S1024x2048 S128x1024 [1] [1] [0] [0] [] []
  dot_S128x4096_S2048x4096_S128x2048_1_1_0_0_n_n_wf : DotDims.WF S128x4096 S2048x4096 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S4x4096x4096.size a
  hwx0_0 : ∀ i : grid0.Coords, EltTy.bits .f32 = 32 ∨ (Rect.block (s := S4x4096x4096) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S4x4096x4096.size a
  hwx0_4 : ∀ i : grid0.Coords, EltTy.bits .f32 = 32 ∨ (Rect.block (s := S4x4096x4096) S1x128x4096.size (cc0_transform_4 i) (hinb0_4 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf
def dot_S128x4096_S2048x4096_S128x2048_1_1_0_0_n_n : DotDims S128x4096 S2048x4096 S128x2048 where
  lhsContracting := [1]
  rhsContracting := [1]
  lhsNonContracting := [0]
  rhsNonContracting := [0]
  lhsBatch := []
  rhsBatch := []
  wf := dot_S128x4096_S2048x4096_S128x2048_1_1_0_0_n_n_wf

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S1024x1024 : Shape := ⟨2, ![1024, 1024]⟩
abbrev S1024x2048 : Shape := ⟨2, ![1024, 2048]⟩
abbrev S2048x4096 : Shape := ⟨2, ![2048, 4096]⟩
abbrev S4x4096x1024 : Shape := ⟨3, ![4, 4096, 1024]⟩
abbrev S4x4096x2048 : Shape := ⟨3, ![4, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1024x1024, .f32⟩
  | .hbm, ⟨2, _⟩ => ⟨S1024x2048, .f32⟩
  | .hbm, ⟨3, _⟩ => ⟨S2048x4096, .f32⟩
  | .hbm, ⟨4, _⟩ => ⟨S4x4096x1024, .f32⟩
  | .hbm, ⟨5, _⟩ => ⟨S4x4096x1024, .f32⟩
  | .hbm, ⟨6, _⟩ => ⟨S4x4096x2048, .f32⟩
  | .hbm, ⟨7, _⟩ => ⟨S4x4096x1024, .f32⟩
  | .hbm, ⟨8, _⟩ => ⟨S4x4096x2048, .f32⟩
  | .hbm, ⟨9, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  slices_S4x4096x4096_S4x4096x1024_0_0_0 : S4x4096x4096.Slices ![0, 0, 0] S4x4096x1024
  slices_S4x4096x4096_S4x4096x2048_0_0_0 : S4x4096x4096.Slices ![0, 0, 0] S4x4096x2048
  concatenates_S4x4096x1024_S4x4096x1024_S4x4096x2048_S4x4096x4096_d2 : Shape.Concatenates [S4x4096x1024, S4x4096x1024, S4x4096x2048] S4x4096x4096 2
  dot_S4x4096x1024_S1024x1024_S4x4096x1024_2_1_01_0_n_n_wf : DotDims.WF S4x4096x1024 S1024x1024 S4x4096x1024 [2] [1] [0, 1] [0] [] []
  dot_S4x4096x2048_S1024x2048_S4x4096x1024_2_1_01_0_n_n_wf : DotDims.WF S4x4096x2048 S1024x2048 S4x4096x1024 [2] [1] [0, 1] [0] [] []
  dot_S4x4096x4096_S2048x4096_S4x4096x2048_2_1_01_0_n_n_wf : DotDims.WF S4x4096x4096 S2048x4096 S4x4096x2048 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x2048_S1024x2048_S4x4096x1024_2_1_01_0_n_n : DotDims S4x4096x2048 S1024x2048 S4x4096x1024 where
  lhsContracting := [2]
  rhsContracting := [1]
  lhsNonContracting := [0, 1]
  rhsNonContracting := [0]
  lhsBatch := []
  rhsBatch := []
  wf := dot_S4x4096x2048_S1024x2048_S4x4096x1024_2_1_01_0_n_n_wf
def dot_S4x4096x4096_S2048x4096_S4x4096x2048_2_1_01_0_n_n : DotDims S4x4096x4096 S2048x4096 S4x4096x2048 where
  lhsContracting := [2]
  rhsContracting := [1]
  lhsNonContracting := [0, 1]
  rhsNonContracting := [0]
  lhsBatch := []
  rhsBatch := []
  wf := dot_S4x4096x4096_S2048x4096_S4x4096x2048_2_1_01_0_n_n_wf

class Facts : Prop extends Facts₀ where

variable [Facts]
-- ==== Proof.LibDotNT.lean ====
import Idealize.ShloMosaic.PureOps.Ideal.Laws
import Idealize.ShloMosaic.Lib.ValueIdx
import Idealize.ShloMosaic.PureOps.Dims

/-!
  A matrix product against a transposed right operand: a left operand of shape [M, K] and a right operand of shape
  [N, K], both contracted on their axis 1, with no batch axes, give a result of shape [M, N] whose entry (p, q) is
  the sum over k < K of l(p, k) · r(q, k) — the product l · rᵀ of a linear layer whose weight is stored as
  (out_features, in_features). The dimension record is a variable and its six lists are hypotheses, so the lemmas
  apply to every record of this shape.
-/

open scoped BigOperators

namespace Cert.Lib.DotNT

open Idealize.ShloMosaic Idealize.ShloMosaic.ValueIdx

variable {M K N : Nat} (d : DotDims ⟨2, ![M, K]⟩ ⟨2, ![N, K]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its free axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its free axis 0, the result index's column. -/
theorem rhsIdx_zero_val (hln : d.lhsNonContracting = [0]) (hrn : d.rhsNonContracting = [0])
    (hlb : d.lhsBatch = []) (hrb : d.rhsBatch = [])
    (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of l · rᵀ at entry (p, q), re-indexed by the one contraction coordinate, is the sum over
    k < K of l(p, k) · r(q, k). -/
theorem sum_eq (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal) (p : Fin M) (q : Fin N) :
    (∑ k : d.contr.Idx, l (d.lhsIdx (ix2 p q) k) * r (d.rhsIdx (ix2 p q) k)) = ∑ k : Fin K, l (ix2 p k) * r (ix2 q k) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 q i := by
    funext a
    match a with
    | ⟨0, _⟩ => exact Fin.ext (rhsIdx_zero_val d hln hrn hlb hrb _ _)
    | ⟨1, _⟩ => exact Fin.ext ((d.rhsIdx_val_of_single hrc _ _).trans (contrEquiv1_symm_val d K hr hs i))
  show l _ * r _ = _
  rw [hL, hR]

/-- The product l · rᵀ accumulated into the zero splat, read at entry (p, q) at the ideal values, is the sum over
    k < K of l(p, k) · r(q, k). -/
theorem matmul_zero_apply {φ₁ φ₂ : FTy} (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (l : FVec Ideal ⟨2, ![M, K]⟩ φ₁) (r : FVec Ideal ⟨2, ![N, K]⟩ φ₂) (p : Fin M) (q : Fin N) :
    FloatOps.matmul d prec l r (constant (F := Ideal) ⟨2, ![M, N]⟩ .f32 0x00000000#32) (ix2 p q)
      = ∑ k : Fin K, l (ix2 p k) * r (ix2 q k) :=
  (Ideal.matmul_constant_zero_apply d prec l r (ix2 p q)).trans (sum_eq d hlc hrc hln hrn hlb hrb l r p q)

end Cert.Lib.DotNT
-- ==== Proof.Spec.lean ====
import Idealize.ShloMosaic.PureOps.Ideal
import Idealize.ShloMosaic.Lib.ValueIdx

/-!
  The nested ("matryoshka") linear layer as one function of its arguments.

  The input x has rows of 4096 features; three heads read nested prefixes of a row and project them with their own
  weight matrices, stored as (out_features, in_features):
    head 0 reads the first 1024 features against W0 (1024 × 1024) and fills output columns    0 … 1023,
    head 1 reads the first 2048 features against W1 (1024 × 2048) and fills output columns 1024 … 2047,
    head 2 reads all       4096 features against W2 (2048 × 4096) and fills output columns 2048 … 4095.
  So the output entry at row (b, s) and column o is the inner product of a prefix of the row x(b, s, ·) with one
  row of one weight matrix. The function is stated for any number of batches and rows, so that it speaks of the whole
  [4, 4096, 4096] array and of one [1, 128, 4096] block of rows alike.
-/

open scoped BigOperators

noncomputable section

namespace Cert.Matryoshka

open Idealize.ShloMosaic Idealize.ShloMosaic.ValueIdx

/-- One head at one output entry: the first K features of row (b, s) of x against row o of a weight matrix w with K
    columns. -/
def head {B R : Nat} (K N : Nat) (hK : K ≤ 4096) (x : (⟨3, ![B, R, 4096]⟩ : Shape).Idx → EReal)
    (w : (⟨2, ![N, K]⟩ : Shape).Idx → EReal) (b : Fin B) (s : Fin R) (o : Fin N) : EReal :=
  ∑ k : Fin K, x (ix3 b s (Fin.castLE hK k)) * w (ix2 o k)

/-- A head depends on its row and output feature only through their numbers. -/
theorem head_ext {B R : Nat} (K N : Nat) (hK : K ≤ 4096) (x : (⟨3, ![B, R, 4096]⟩ : Shape).Idx → EReal)
    (w : (⟨2, ![N, K]⟩ : Shape).Idx → EReal) {b b' : Fin B} {s s' : Fin R} {o o' : Fin N}
    (hb : b.val = b'.val) (hs : s.val = s'.val) (ho : o.val = o'.val) :
    head K N hK x w b s o = head K N hK x w b' s' o' := by
  obtain rfl := Fin.ext hb
  obtain rfl := Fin.ext hs
  obtain rfl := Fin.ext ho
  rfl

/-- The layer's output: the three heads side by side along the last axis, chosen by the column. -/
def out {B R : Nat} (x : (⟨3, ![B, R, 4096]⟩ : Shape).Idx → EReal)
    (w0 : (⟨2, ![1024, 1024]⟩ : Shape).Idx → EReal) (w1 : (⟨2, ![1024, 2048]⟩ : Shape).Idx → EReal)
    (w2 : (⟨2, ![2048, 4096]⟩ : Shape).Idx → EReal) : (⟨3, ![B, R, 4096]⟩ : Shape).Idx → EReal := fun j =>
  if h0 : (j 2).val < 1024 then head 1024 1024 (by decide) x w0 (j 0) (j 1) ⟨(j 2).val, h0⟩
  else if h1 : (j 2).val < 2048 then head 2048 1024 (by decide) x w1 (j 0) (j 1) ⟨(j 2).val - 1024, by omega⟩
  else head 4096 2048 (by decide) x w2 (j 0) (j 1) ⟨(j 2).val - 2048, by have h : (j 2).val < 4096 := (j 2).isLt; omega⟩

/-- In the columns of head 0. -/
theorem out_of_lt {B R : Nat} (x : (⟨3, ![B, R, 4096]⟩ : Shape).Idx → EReal)
    (w0 : (⟨2, ![1024, 1024]⟩ : Shape).Idx → EReal) (w1 : (⟨2, ![1024, 2048]⟩ : Shape).Idx → EReal)
    (w2 : (⟨2, ![2048, 4096]⟩ : Shape).Idx → EReal) (j : (⟨3, ![B, R, 4096]⟩ : Shape).Idx) (h0 : (j 2).val < 1024) :
    out x w0 w1 w2 j = head 1024 1024 (by decide) x w0 (j 0) (j 1) ⟨(j 2).val, h0⟩ := by
  unfold out
  exact dif_pos h0

/-- In the columns of head 1. -/
theorem out_of_mid {B R : Nat} (x : (⟨3, ![B, R, 4096]⟩ : Shape).Idx → EReal)
    (w0 : (⟨2, ![1024, 1024]⟩ : Shape).Idx → EReal) (w1 : (⟨2, ![1024, 2048]⟩ : Shape).Idx → EReal)
    (w2 : (⟨2, ![2048, 4096]⟩ : Shape).Idx → EReal) (j : (⟨3, ![B, R, 4096]⟩ : Shape).Idx)
    (h0 : ¬ (j 2).val < 1024) (h1 : (j 2).val < 2048) :
    out x w0 w1 w2 j = head 2048 1024 (by decide) x w1 (j 0) (j 1) ⟨(j 2).val - 1024, by omega⟩ := by
  unfold out
  rw [dif_neg h0, dif_pos h1]

/-- In the columns of head 2. -/
theorem out_of_ge {B R : Nat} (x : (⟨3, ![B, R, 4096]⟩ : Shape).Idx → EReal)
    (w0 : (⟨2, ![1024, 1024]⟩ : Shape).Idx → EReal) (w1 : (⟨2, ![1024, 2048]⟩ : Shape).Idx → EReal)
    (w2 : (⟨2, ![2048, 4096]⟩ : Shape).Idx → EReal) (j : (⟨3, ![B, R, 4096]⟩ : Shape).Idx)
    (h0 : ¬ (j 2).val < 1024) (h1 : ¬ (j 2).val < 2048) :
    out x w0 w1 w2 j = head 4096 2048 (by decide) x w2 (j 0) (j 1)
      ⟨(j 2).val - 2048, by have h : (j 2).val < 4096 := (j 2).isLt; omega⟩ := by
  unfold out
  rw [dif_neg h0, dif_neg h1]

/-- The layer acts row by row: if row (j 0, j 1) of x is row (j' 0, j' 1) of x' and the two indices name the same column,
    the outputs agree there. So a block of rows of the output is the layer of that block of rows of the input. -/
theorem out_of_row_eq {B R B' R' : Nat} (x : (⟨3, ![B, R, 4096]⟩ : Shape).Idx → EReal)
    (x' : (⟨3, ![B', R', 4096]⟩ : Shape).Idx → EReal)
    (w0 : (⟨2, ![1024, 1024]⟩ : Shape).Idx → EReal) (w1 : (⟨2, ![1024, 2048]⟩ : Shape).Idx → EReal)
    (w2 : (⟨2, ![2048, 4096]⟩ : Shape).Idx → EReal)
    (j : (⟨3, ![B, R, 4096]⟩ : Shape).Idx) (j' : (⟨3, ![B', R', 4096]⟩ : Shape).Idx)
    (hrow : ∀ k : Fin 4096, x (ix3 (j 0) (j 1) k) = x' (ix3 (j' 0) (j' 1) k)) (hcol : (j 2).val = (j' 2).val) :
    out x w0 w1 w2 j = out x' w0 w1 w2 j' := by
  by_cases h0 : (j 2).val < 1024
  · have h0' : (j' 2).val < 1024 := hcol ▸ h0
    rw [out_of_lt x w0 w1 w2 j h0, out_of_lt x' w0 w1 w2 j' h0']
    unfold head
    refine Finset.sum_congr rfl fun k _ => ?_
    rw [hrow, show (⟨(j 2).val, h0⟩ : Fin 1024) = ⟨(j' 2).val, h0'⟩ from Fin.ext hcol]
  · have h0' : ¬ (j' 2).val < 1024 := hcol ▸ h0
    by_cases h1 : (j 2).val < 2048
    · have h1' : (j' 2).val < 2048 := hcol ▸ h1
      rw [out_of_mid x w0 w1 w2 j h0 h1, out_of_mid x' w0 w1 w2 j' h0' h1']
      unfold head
      refine Finset.sum_congr rfl fun k _ => ?_
      rw [hrow, show (⟨(j 2).val - 1024, by omega⟩ : Fin 1024) = ⟨(j' 2).val - 1024, by omega⟩ from Fin.ext (by show (j 2).val - 1024 = (j' 2).val - 1024; omega)]
    · have h1' : ¬ (j' 2).val < 2048 := hcol ▸ h1
      have hj : (j 2).val < 4096 := (j 2).isLt
      have hj' : (j' 2).val < 4096 := (j' 2).isLt
      rw [out_of_ge x w0 w1 w2 j h0 h1, out_of_ge x' w0 w1 w2 j' h0' h1']
      unfold head
      refine Finset.sum_congr rfl fun k _ => ?_
      rw [hrow, show (⟨(j 2).val - 2048, by omega⟩ : Fin 2048) = ⟨(j' 2).val - 2048, by omega⟩ from Fin.ext (by show (j 2).val - 2048 = (j' 2).val - 2048; omega)]

end Cert.Matryoshka

end
-- ==== Proof.Payload.lean ====
import proofs.«175755_j59820304498925_1_alg».proof.Proof.Gen.KernelIdeal.Skeleton
import proofs.«175755_j59820304498925_1_alg».proof.Proof.LibDotNT
import proofs.«175755_j59820304498925_1_alg».proof.Proof.Spec
import Idealize.ShloMosaic.Lib.Pipeline.Value
import Idealize.ShloMosaic.PureOps.Ideal.Laws

/-!
  What the kernel body stores, entry by entry, at the ideal values.

  The body loads one block of 128 rows of x (shape [1, 128, 4096]), views it as a 128 × 4096 matrix (the change of
  float format is the identity on the extended reals), takes the prefixes of 1024, 2048 and 4096 columns, multiplies
  each against the transpose of its weight matrix into a zero accumulator, and stores the three products, again under
  a leading unit axis. So each stored value, at (0, r, o), is one head of the nested layer at row r of the block and
  output feature o of that head: the inner product of a prefix of the row with row o of the weight matrix.
-/

open scoped BigOperators

noncomputable section

namespace Cert.KernelIdeal.Payload

open Cert.KernelIdeal Cert.KernelIdeal.Gen Idealize.ShloMosaic Idealize.ShloMosaic.ValueIdx

/-- Dropping the leading unit coordinate of (a, r, o) leaves (r, o). -/
theorem tail_ix3 {n1 n2 : Nat} (a : Fin 1) (r : Fin n1) (o : Fin n2) :
    (fun d : Fin 2 => (ix3 a r o) d.succ) = ix2 r o := by
  funext d
  match d with
  | ⟨0, _⟩ => rfl
  | ⟨1, _⟩ => rfl

/-- Putting the unit coordinate 0 in front of (r, k) gives (0, r, k). -/
theorem cons_ix2 {n1 n2 : Nat} (r : Fin n1) (k : Fin n2) :
    (Fin.cons (⟨0, Nat.one_pos⟩ : Fin 1) (ix2 r k) : (⟨3, ![1, n1, n2]⟩ : Shape).Idx) = ix3 (0 : Fin 1) r k := by
  funext d
  match d with
  | ⟨0, _⟩ => rfl
  | ⟨1, _⟩ => rfl
  | ⟨2, _⟩ => rfl

/-- The block of rows as a matrix: entry (r, k) is the block's entry (0, r, k). -/
theorem rows_apply (x0 : Vec Ideal S1x128x4096 .f32) (r : Fin 128) (k : Fin 4096) :
    k0_pay1 (F := Ideal) x0 (ix2 r k) = x0 (ix3 (0 : Fin 1) r k) := by
  unfold k0_pay1
  show shapeCast S128x4096 x0 shapeCasts_S1x128x4096_S128x4096 (ix2 r k) = _
  refine (shapeCast_dropUnit_apply ![128, 4096] x0 shapeCasts_S1x128x4096_S128x4096 (ix2 r k)).trans ?_
  exact congrArg x0 (cons_ix2 r k)

/-- The first 1024 columns of a 128 × 4096 matrix: entry (r, k) is the matrix's entry (r, k). -/
theorem prefix1024_apply (v : FVec Ideal S128x4096 .bf16) (r : Fin 128) (k : Fin 1024) :
    extractStridedSlice S128x1024 ![0, 0] v slices_S128x4096_o0_0_S128x1024 (ix2 r k)
      = v (ix2 r (Fin.castLE (by decide : 1024 ≤ 4096) k)) :=
  extractStridedSlice_apply ![0, 0] v slices_S128x4096_o0_0_S128x1024 (ix2 r k)
    (ix2 r (Fin.castLE (by decide : 1024 ≤ 4096) k))
    (fun d => match d with
      | ⟨0, _⟩ => by show r.val = 0 + r.val; omega
      | ⟨1, _⟩ => by show k.val = 0 + k.val; omega)

/-- The first 2048 columns of a 128 × 4096 matrix: entry (r, k) is the matrix's entry (r, k). -/
theorem prefix2048_apply (v : FVec Ideal S128x4096 .bf16) (r : Fin 128) (k : Fin 2048) :
    extractStridedSlice S128x2048 ![0, 0] v slices_S128x4096_o0_0_S128x2048 (ix2 r k)
      = v (ix2 r (Fin.castLE (by decide : 2048 ≤ 4096) k)) :=
  extractStridedSlice_apply ![0, 0] v slices_S128x4096_o0_0_S128x2048 (ix2 r k)
    (ix2 r (Fin.castLE (by decide : 2048 ≤ 4096) k))
    (fun d => match d with
      | ⟨0, _⟩ => by show r.val = 0 + r.val; omega
      | ⟨1, _⟩ => by show k.val = 0 + k.val; omega)

/-- Head 0's stored value at (a, r, o): the first 1024 entries of row r against row o of the first weight matrix. -/
theorem pay_head0 (x0 : Vec Ideal S1x128x4096 .f32) (x1 : Vec Ideal S1024x1024 .bf16)
    (a : Fin 1) (r : Fin 128) (o : Fin 1024) :
    k0_pay2 (F := Ideal) x0 x1 (ix3 a r o) = Cert.Matryoshka.head 1024 1024 (by decide) x0 x1 (0 : Fin 1) r o := by
  unfold k0_pay2
  refine (shapeCast_addUnit_apply ![128, 1024] _ shapeCasts_S128x1024_S1x128x1024 (ix3 a r o)).trans ?_
  rw [tail_ix3]
  refine (Cert.Lib.DotNT.matmul_zero_apply dot_S128x1024_S1024x1024_S128x1024_1_1_0_0_n_n rfl rfl rfl rfl rfl rfl none _ _ r o).trans ?_
  unfold Cert.Matryoshka.head
  refine Finset.sum_congr rfl fun k _ => ?_
  congr 1
  · rw [prefix1024_apply, rows_apply]
  · rw [shapeCast_self]

/-- Head 1's stored value at (a, r, o): the first 2048 entries of row r against row o of the second weight matrix. -/
theorem pay_head1 (x0 : Vec Ideal S1x128x4096 .f32) (x2 : Vec Ideal S1024x2048 .bf16)
    (a : Fin 1) (r : Fin 128) (o : Fin 1024) :
    k0_pay3 (F := Ideal) x0 x2 (ix3 a r o) = Cert.Matryoshka.head 2048 1024 (by decide) x0 x2 (0 : Fin 1) r o := by
  unfold k0_pay3
  refine (shapeCast_addUnit_apply ![128, 1024] _ shapeCasts_S128x1024_S1x128x1024 (ix3 a r o)).trans ?_
  rw [tail_ix3]
  refine (Cert.Lib.DotNT.matmul_zero_apply dot_S128x2048_S1024x2048_S128x1024_1_1_0_0_n_n rfl rfl rfl rfl rfl rfl none _ _ r o).trans ?_
  unfold Cert.Matryoshka.head
  refine Finset.sum_congr rfl fun k _ => ?_
  congr 1
  · rw [prefix2048_apply, rows_apply]
  · rw [shapeCast_self]

/-- Head 2's stored value at (a, r, o): the whole row r against row o of the third weight matrix. -/
theorem pay_head2 (x0 : Vec Ideal S1x128x4096 .f32) (x3 : Vec Ideal S2048x4096 .bf16)
    (a : Fin 1) (r : Fin 128) (o : Fin 2048) :
    k0_pay4 (F := Ideal) x0 x3 (ix3 a r o) = Cert.Matryoshka.head 4096 2048 (by decide) x0 x3 (0 : Fin 1) r o := by
  unfold k0_pay4
  refine (shapeCast_addUnit_apply ![128, 2048] _ shapeCasts_S128x2048_S1x128x2048 (ix3 a r o)).trans ?_
  rw [tail_ix3]
  refine (Cert.Lib.DotNT.matmul_zero_apply dot_S128x4096_S2048x4096_S128x2048_1_1_0_0_n_n rfl rfl rfl rfl rfl rfl none _ _ r o).trans ?_
  unfold Cert.Matryoshka.head
  refine Finset.sum_congr rfl fun k _ => ?_
  congr 1
  · exact rows_apply x0 r k
  · rw [shapeCast_self]

end Cert.KernelIdeal.Payload

end
-- ==== Proof.BlockValue.lean ====
import proofs.«175755_j59820304498925_1_alg».proof.Proof.Gen.KernelIdeal.Frame
import proofs.«175755_j59820304498925_1_alg».proof.Proof.Payload
import Idealize.ShloMosaic.Lib.Pipeline.Value

/-!
  What one run of the kernel body leaves in the output block.

  The body's three stores fill the columns 0 … 1023, 1024 … 2047 and 2048 … 4095 of the [1, 128, 4096] output block
  with the three heads. Each store's value, at its own index, is the nested layer of the loaded blocks at the place in
  the block that index names; the three column ranges cover the block; so the block ends holding the nested layer of
  the row block and the three weight matrices.
-/

set_option maxRecDepth 16384

open scoped BigOperators

noncomputable section

namespace Cert.KernelIdeal.BlockValue

open Cert.KernelIdeal Cert.KernelIdeal.Gen Idealize.ShloMosaic Idealize.ShloMosaic.TcCoe Idealize.ShloMosaic.Tactic
open Idealize.ShloMosaic.ValueIdx Idealize.SL.Sem

/-- All-zero offsets, as the loads and stores spell them. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- After one run of the body the output block holds the nested layer of the row block and the weight matrices the
    run loaded, whatever the staging buffers and the grid point. -/
theorem block_eq (c : Dev nD) (i : grid0.Coords) (arg2 : Memref sig .tc .vmem S1x128x4096 .f32) (harg2 : arg2.IsWhole)
    (arg3 : Memref sig .tc .vmem S1024x1024 .bf16) (harg3 : arg3.IsWhole)
    (arg4 : Memref sig .tc .vmem S1024x2048 .bf16) (harg4 : arg4.IsWhole)
    (arg5 : Memref sig .tc .vmem S2048x4096 .bf16) (harg5 : arg5.IsWhole)
    (arg6 : Memref sig .tc .vmem S1x128x4096 .f32) (harg6 : arg6.IsWhole)
    (x0 : Vec Ideal S1x128x4096 .f32) (x1 : Vec Ideal S1024x1024 .bf16) (x2 : Vec Ideal S1024x2048 .bf16)
    (x3 : Vec Ideal S2048x4096 .bf16) :
    out0_A_4 (F := Ideal) c i arg2 harg2 arg3 harg3 arg4 harg4 arg5 harg5 arg6 harg6 x0 x1 x2 x3
      = Cert.Matryoshka.out (B := 1) (R := 128) x0 x1 x2 x3 := by
  unfold out0_A_4
  rw [View.read_writes_eq_canon _ _ _ (cover0_A_4 c i arg2 harg2 arg3 harg3 arg4 harg4 arg5 harg5 arg6 harg6 x0 x1 x2 x3)]
  funext y
  refine View.canon_apply_of_pieces (Cert.Matryoshka.out (B := 1) (R := 128) x0 x1 x2 x3) _ ?_ y
    (cover0_A_4 c i arg2 harg2 arg3 harg3 arg4 harg4 arg5 harg5 arg6 harg6 x0 x1 x2 x3 y)
  unfold kernelRun0_A
  dsimp only
  sl_unfold_words
  simp only [View.readAt_eq_ld, harg2.read_unread, harg3.read_unread, harg4.read_unread, harg5.read_unread,
    View.ld_unit_zero (S := S1x128x4096) zeros3, View.ld_unit_zero (S := S1024x1024) zeros2,
    View.ld_unit_zero (S := S1024x2048) zeros2, View.ld_unit_zero (S := S2048x4096) zeros2]
  intro p hp
  rcases List.mem_cons.mp hp with rfl | hp
  · intro x
    obtain ⟨a, r, o, rfl⟩ : ∃ (a : Fin 1) (r : Fin 128) (o : Fin 2048), x = ix3 a r o := ⟨x 0, x 1, x 2, eq_ix3 x⟩
    have ha : a.val = 0 := by have := a.isLt; omega
    have e0 : ¬ ((Rect.unit (s := S1x128x4096) ![0, 0, 2048] ![1, 128, 2048] inb_S1x128x4096_S1x128x2048_0_0_2048).emb (ix3 a r o) 2).val < 1024 := by
      show ¬ (2048 + 1 * o.val < 1024); omega
    have e1 : ¬ ((Rect.unit (s := S1x128x4096) ![0, 0, 2048] ![1, 128, 2048] inb_S1x128x4096_S1x128x2048_0_0_2048).emb (ix3 a r o) 2).val < 2048 := by
      show ¬ (2048 + 1 * o.val < 2048); omega
    refine (Payload.pay_head2 x0 x3 a r o).trans ?_
    refine Eq.trans ?_ (Cert.Matryoshka.out_of_ge x0 x1 x2 x3 _ e0 e1).symm
    exact Cert.Matryoshka.head_ext 4096 2048 _ x0 x3 (by show (0 : Nat) = 0 + 1 * a.val; omega)
      (by show r.val = 0 + 1 * r.val; omega) (by show o.val = 2048 + 1 * o.val - 2048; omega)
  rcases List.mem_cons.mp hp with rfl | hp
  · intro x
    obtain ⟨a, r, o, rfl⟩ : ∃ (a : Fin 1) (r : Fin 128) (o : Fin 1024), x = ix3 a r o := ⟨x 0, x 1, x 2, eq_ix3 x⟩
    have ha : a.val = 0 := by have := a.isLt; omega
    have ho : o.val < 1024 := o.isLt
    have e0 : ¬ ((Rect.unit (s := S1x128x4096) ![0, 0, 1024] ![1, 128, 1024] inb_S1x128x4096_S1x128x1024_0_0_1024).emb (ix3 a r o) 2).val < 1024 := by
      show ¬ (1024 + 1 * o.val < 1024); omega
    have e1 : ((Rect.unit (s := S1x128x4096) ![0, 0, 1024] ![1, 128, 1024] inb_S1x128x4096_S1x128x1024_0_0_1024).emb (ix3 a r o) 2).val < 2048 := by
      show 1024 + 1 * o.val < 2048; omega
    refine (Payload.pay_head1 x0 x2 a r o).trans ?_
    refine Eq.trans ?_ (Cert.Matryoshka.out_of_mid x0 x1 x2 x3 _ e0 e1).symm
    exact Cert.Matryoshka.head_ext 2048 1024 _ x0 x2 (by show (0 : Nat) = 0 + 1 * a.val; omega)
      (by show r.val = 0 + 1 * r.val; omega) (by show o.val = 1024 + 1 * o.val - 1024; omega)
  rcases List.mem_cons.mp hp with rfl | hp
  · intro x
    obtain ⟨a, r, o, rfl⟩ : ∃ (a : Fin 1) (r : Fin 128) (o : Fin 1024), x = ix3 a r o := ⟨x 0, x 1, x 2, eq_ix3 x⟩
    have ha : a.val = 0 := by have := a.isLt; omega
    have ho : o.val < 1024 := o.isLt
    have e0 : ((Rect.unit (s := S1x128x4096) ![0, 0, 0] ![1, 128, 1024] inb_S1x128x4096_S1x128x1024_0_0_0).emb (ix3 a r o) 2).val < 1024 := by
      show 0 + 1 * o.val < 1024; omega
    refine (Payload.pay_head0 x0 x1 a r o).trans ?_
    refine Eq.trans ?_ (Cert.Matryoshka.out_of_lt x0 x1 x2 x3 _ e0).symm
    exact Cert.Matryoshka.head_ext 1024 1024 _ x0 x1 (by show (0 : Nat) = 0 + 1 * a.val; omega)
      (by show r.val = 0 + 1 * r.val; omega) (by show o.val = 0 + 1 * o.val; omega)
  · exact absurd hp List.not_mem_nil

end Cert.KernelIdeal.BlockValue

end
-- ==== Proof.ArrayValue.lean ====
import proofs.«175755_j59820304498925_1_alg».proof.Proof.Gen.KernelIdeal.Value
import proofs.«175755_j59820304498925_1_alg».proof.Proof.BlockValue
import Idealize.ShloMosaic.Lib.Pipeline.Value

/-!
  From blocks to the array: the kernel's whole result.

  The grid has 4 × 32 points; point (b, s) stages rows 128·s … 128·s + 127 of batch b of x, all of each weight
  matrix (as the host's change of float format left them), and writes its output block back to the same rows of the
  result. The layer acts row by row, so the block a point writes is the layer of the whole arrays read through that
  point's block; the 128 blocks tile the result; so the result is the layer of x and the three weight matrices.
-/

set_option maxRecDepth 16384

open scoped BigOperators

noncomputable section

namespace Cert.KernelIdeal.ArrayValue

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-- The arrays the region finds, and the blocks a point stages, under their literal types. -/
abbrev xarr (c : Dev nD) : Vec Ideal S4x4096x4096 .f32 := V m c main_arg0
abbrev w0arr (c : Dev nD) : Vec Ideal S1024x1024 .bf16 := V m c main_v0
abbrev w1arr (c : Dev nD) : Vec Ideal S1024x2048 .bf16 := V m c main_v1
abbrev w2arr (c : Dev nD) : Vec Ideal S2048x4096 .bf16 := V m c main_v2
abbrev xblk (c : Dev nD) (t : Fin cfg0.N) : Vec Ideal S1x128x4096 .f32 := iblk m c 0 t
abbrev w0blk (c : Dev nD) (t : Fin cfg0.N) : Vec Ideal S1024x1024 .bf16 := iblk m c 1 t
abbrev w1blk (c : Dev nD) (t : Fin cfg0.N) : Vec Ideal S1024x2048 .bf16 := iblk m c 2 t
abbrev w2blk (c : Dev nD) (t : Fin cfg0.N) : Vec Ideal S2048x4096 .bf16 := iblk m c 3 t

/-- The printed index maps over the grid: x's window and the result's move together over batches and row blocks and
    stay at column block 0; the weights' windows stay at block (0, 0). -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every (batch, row block) is some point's. -/
theorem index_onto : ∀ (b : Fin 4) (s : Fin 32), ∃ t : Fin cfg0.N, win0_4.index t = ![b.val, s.val, 0] :=
  (by decide +kernel : ∀ (b : Fin 4) (s : Fin 32), ∃ t : Fin grid0.N, win0_4.index t = ![b.val, s.val, 0])

/-- A weight matrix's one block is the matrix. -/
theorem w0blk_eq (c : Dev nD) (t : Fin cfg0.N) : w0blk m c t = w0arr m c := by
  obtain ⟨-, -, -, -, e0, e1, -, -, -, -⟩ := index_facts t
  funext y
  show V m c main_v0 (((cfg0.win 1).blk t).view.emb y) = V m c main_v0 y
  refine congrArg (V m c main_v0) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem w1blk_eq (c : Dev nD) (t : Fin cfg0.N) : w1blk m c t = w1arr m c := by
  obtain ⟨-, -, -, -, -, -, e0, e1, -, -⟩ := index_facts t
  funext y
  show V m c main_v1 (((cfg0.win 2).blk t).view.emb y) = V m c main_v1 y
  refine congrArg (V m c main_v1) (funext fun a => Fin.ext ?_)
  match a with
  | ⟨0, _⟩ => show win0_2.index t (0 : Fin 2) * 1024 + 1 * (y 0).val = (y 0).val; omega
  | ⟨1, _⟩ => show win0_2.index t (1 : Fin 2) * 2048 + 1 * (y 1).val = (y 1).val; omega

theorem w2blk_eq (c : Dev nD) (t : Fin cfg0.N) : w2blk m c t = w2arr m c := by
  obtain ⟨-, -, -, -, -, -, -, -, e0, e1⟩ := index_facts t
  funext y
  show V m c main_v2 (((cfg0.win 3).blk t).view.emb y) = V m c main_v2 y
  refine congrArg (V m c main_v2) (funext fun a => Fin.ext ?_)
  match a with
  | ⟨0, _⟩ => show win0_3.index t (0 : Fin 2) * 2048 + 1 * (y 0).val = (y 0).val; omega
  | ⟨1, _⟩ => show win0_3.index t (1 : Fin 2) * 4096 + 1 * (y 1).val = (y 1).val; omega

/-- A row of the staged block of x is the row of x that the result's block names at the same place. -/
theorem xblk_row (c : Dev nD) (t : Fin cfg0.N) (j : S1x128x4096.Idx) (k : Fin 4096) :
    xblk m c t (ix3 (j 0) (j 1) k)
      = xarr m c (ix3 ((((cfg0.win 4).blk t).view.emb j) 0) ((((cfg0.win 4).blk t).view.emb j) 1) k) := by
  obtain ⟨e0, e1, e2, e3, -, -, -, -, -, -⟩ := index_facts t
  show V m c main_arg0 (((cfg0.win 0).blk t).view.emb (ix3 (j 0) (j 1) k)) = _
  refine congrArg (V m c main_arg0) (funext fun a => Fin.ext ?_)
  match a with
  | ⟨0, _⟩ => show win0_0.index t (0 : Fin 3) * 1 + 1 * (j 0).val = win0_4.index t (0 : Fin 3) * 1 + 1 * (j 0).val; omega
  | ⟨1, _⟩ => show win0_0.index t (1 : Fin 3) * 128 + 1 * (j 1).val = win0_4.index t (1 : Fin 3) * 128 + 1 * (j 1).val; omega
  | ⟨2, _⟩ => show win0_0.index t (2 : Fin 3) * 4096 + 1 * k.val = k.val; omega

/-- What a point writes back is its block of the layer of the whole arrays. -/
theorem flushed_eq (c : Dev nD) (t : Fin cfg0.N) :
    (dats m 0 c).flushed 4 t = ((cfg0.win 4).blk t).view.read (Elt Ideal)
      (Cert.Matryoshka.out (B := 4) (R := 4096) (xarr m c) (w0arr m c) (w1arr m c) (w2arr m c)) := by
  refine (flushed4_A m c t).trans ?_
  refine (congrArg ((cfg0.win 4).cut (grid0.coords t))
    (BlockValue.block_eq c (grid0.coords t) (ms0_0 t) (hs0_0 t) (ms0_1 t) (hs0_1 t) (ms0_2 t) (hs0_2 t) (ms0_3 t) (hs0_3 t)
      (ms0_4 t) (hs0_4 t) (xblk m c t) (w0blk m c t) (w1blk m c t) (w2blk m c t))).trans ?_
  rw [w0blk_eq, w1blk_eq, w2blk_eq]
  obtain ⟨e0, e1, e2, e3, -, -, -, -, -, -⟩ := index_facts t
  funext j
  show Cert.Matryoshka.out (B := 1) (R := 128) (xblk m c t) (w0arr m c) (w1arr m c) (w2arr m c) j
    = Cert.Matryoshka.out (B := 4) (R := 4096) (xarr m c) (w0arr m c) (w1arr m c) (w2arr m c) (((cfg0.win 4).blk t).view.emb j)
  refine Cert.Matryoshka.out_of_row_eq (xblk m c t) (xarr m c) (w0arr m c) (w1arr m c) (w2arr m c) j
    (((cfg0.win 4).blk t).view.emb j) (fun k => xblk_row m c t j k) ?_
  show (j 2).val = win0_4.index t (2 : Fin 3) * 4096 + 1 * (j 2).val
  omega

/-- An index of the result is in a point's block iff each coordinate is in the block's range on its axis. -/
theorem mem_block (t : Fin cfg0.N) (i : S4x4096x4096.Idx) :
    i ∈ ((cfg0.win 4).blk t).view.set ↔ ∀ a : Fin 3, win0_4.index t a * S1x128x4096.size a ≤ (i a).val
      ∧ (i a).val < win0_4.index t a * S1x128x4096.size a + S1x128x4096.size a := by
  show i ∈ ((View.whole main_v3).slice (win0_4.rect t)).set ↔ _
  rw [View.set_slice_whole, Rect.mem_set_unit]
  exact Iff.rfl

/-- The blocks tile the result: row r of batch b is in the block of point (b, r / 128). -/
theorem covered (i : S4x4096x4096.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := index_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 4096 ≤ (i 2).val ∧ (i 2).val < win0_4.index t (2 : Fin 3) * 4096 + 4096; omega

/-- The result array after the run is the layer of the arrays the region found. -/
theorem final (c : Dev nD) : (dats m 0 c).arrAt 4 cfg0.N
    = Cert.Matryoshka.out (B := 4) (R := 4096) (xarr m c) (w0arr m c) (w1arr m c) (w2arr m c) :=
  (dats m 0 c).arrAt_eq_of_cover 4 _ (fun t _ => flushed_eq m c t) covered

/-- The host's changes of float format before the region are the identity on the extended reals: the region finds each
    weight matrix as launched. -/
theorem w0arr_eq (c : Dev nD) : w0arr m c = m ((c : Thread nD τ).loc main_arg1) := by
  show V m c main_v0 = _
  have e : (V m c main_v0 : S1024x1024.Idx → EReal) = m ((c : Thread nD τ).loc main_arg1) := by
    dsimp only [Gen.V, Gen.hostOps0]; after_results; rfl
  exact e

theorem w1arr_eq (c : Dev nD) : w1arr m c = m ((c : Thread nD τ).loc main_arg2) := by
  show V m c main_v1 = _
  have e : (V m c main_v1 : S1024x2048.Idx → EReal) = m ((c : Thread nD τ).loc main_arg2) := by
    dsimp only [Gen.V, Gen.hostOps0]; after_results; rfl
  exact e

theorem w2arr_eq (c : Dev nD) : w2arr m c = m ((c : Thread nD τ).loc main_arg3) := by
  show V m c main_v2 = _
  have e : (V m c main_v2 : S2048x4096.Idx → EReal) = m ((c : Thread nD τ).loc main_arg3) := by
    dsimp only [Gen.V, Gen.hostOps0]; after_results; rfl
  exact e

theorem xarr_eq (c : Dev nD) : xarr m c = m ((c : Thread nD τ).loc main_arg0) := V_main_arg0 m c

/-- The kernel's run: every weakly fair execution ends with the result at the layer of the launched arguments, and
    the arguments unchanged. -/
theorem run : θ_run defs (onTc (τ := τ) (main (F := Ideal))) ⟨m, fun _ => 0, ρ⟩ fun r => ∀ c : Dev nD,
      r.2.mem ((c : Thread nD τ).loc main_v3)
        = Cert.Matryoshka.out (B := 4) (R := 4096) (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      rw [(h c).1, final m c, xarr_eq, w0arr_eq, w1arr_eq, w2arr_eq], (h c).2⟩)
    (run_blocks m ρ)

end Cert.KernelIdeal.ArrayValue

end
-- ==== Proof.RefValue.lean ====
import proofs.«175755_j59820304498925_1_alg».proof.Proof.Gen.ReferenceIdeal.Read
import proofs.«175755_j59820304498925_1_alg».proof.Proof.Spec
import Idealize.ShloMosaic.Lib.Pipeline.Value

/-!
  The reference computes the nested layer.

  The reference slices the first 1024 and 2048 features off x, contracts each prefix (and x itself) against the second
  axis of its weight matrix — an einsum 'bsd,od->bso' —, and joins the three results along the last axis. Read at an
  index, each contraction is the inner product of a prefix of a row of x with a row of the weight matrix, and the
  joined array picks the head by the column: the function of Spec.lean.
-/

open scoped BigOperators

noncomputable section

namespace Cert.ReferenceIdeal.RefValue

open Cert.ReferenceIdeal Cert.ReferenceIdeal.Gen Cert.ReferenceIdeal.Read Idealize.ShloMosaic Idealize.ShloMosaic.ValueIdx

/-- The first contraction at (b, s, o): head 0. -/
theorem head0_apply (x0 : (⟨S4x4096x4096, .f32⟩ : BufTy).Contents (Elt Ideal)) (x1 : (⟨S1024x1024, .f32⟩ : BufTy).Contents (Elt Ideal))
    (b : Fin 4) (s : Fin 4096) (o : Fin 1024) :
    val_main_v1 (F := Ideal) x0 x1 (ix3 b s o) = Cert.Matryoshka.head 1024 1024 (by decide) x0 x1 b s o := by
  rw [val_main_v1_apply]
  unfold Cert.Matryoshka.head
  refine Finset.sum_congr rfl fun k _ => ?_
  rw [val_main_v0_apply]
  refine congrArg₂ (· * ·) (congrArg x0 (funext fun a => ?_)) (congrArg x1 (funext fun a => ?_))
  · match a with
    | ⟨0, _⟩ => rfl
    | ⟨1, _⟩ => rfl
    | ⟨2, _⟩ => rfl
  · match a with
    | ⟨0, _⟩ => rfl
    | ⟨1, _⟩ => rfl

/-- The second contraction at (b, s, o): head 1. -/
theorem head1_apply (x0 : (⟨S4x4096x4096, .f32⟩ : BufTy).Contents (Elt Ideal)) (x2 : (⟨S1024x2048, .f32⟩ : BufTy).Contents (Elt Ideal))
    (b : Fin 4) (s : Fin 4096) (o : Fin 1024) :
    val_main_v3 (F := Ideal) x0 x2 (ix3 b s o) = Cert.Matryoshka.head 2048 1024 (by decide) x0 x2 b s o := by
  rw [val_main_v3_apply]
  unfold Cert.Matryoshka.head
  refine Finset.sum_congr rfl fun k _ => ?_
  rw [val_main_v2_apply]
  refine congrArg₂ (· * ·) (congrArg x0 (funext fun a => ?_)) (congrArg x2 (funext fun a => ?_))
  · match a with
    | ⟨0, _⟩ => rfl
    | ⟨1, _⟩ => rfl
    | ⟨2, _⟩ => rfl
  · match a with
    | ⟨0, _⟩ => rfl
    | ⟨1, _⟩ => rfl

/-- The third contraction at (b, s, o): head 2. -/
theorem head2_apply (x0 : (⟨S4x4096x4096, .f32⟩ : BufTy).Contents (Elt Ideal)) (x3 : (⟨S2048x4096, .f32⟩ : BufTy).Contents (Elt Ideal))
    (b : Fin 4) (s : Fin 4096) (o : Fin 2048) :
    val_main_v4 (F := Ideal) x0 x3 (ix3 b s o) = Cert.Matryoshka.head 4096 2048 (by decide) x0 x3 b s o := by
  rw [val_main_v4_apply]
  unfold Cert.Matryoshka.head
  refine Finset.sum_congr rfl fun k _ => ?_
  refine congrArg₂ (· * ·) (congrArg x0 (funext fun a => ?_)) (congrArg x3 (funext fun a => ?_))
  · match a with
    | ⟨0, _⟩ => rfl
    | ⟨1, _⟩ => rfl
    | ⟨2, _⟩ => rfl
  · match a with
    | ⟨0, _⟩ => rfl
    | ⟨1, _⟩ => rfl

/-- The reference's result is the nested layer of its arguments. -/
theorem result_eq (x0 : (⟨S4x4096x4096, .f32⟩ : BufTy).Contents (Elt Ideal)) (x1 : (⟨S1024x1024, .f32⟩ : BufTy).Contents (Elt Ideal))
    (x2 : (⟨S1024x2048, .f32⟩ : BufTy).Contents (Elt Ideal)) (x3 : (⟨S2048x4096, .f32⟩ : BufTy).Contents (Elt Ideal)) :
    val_main_v5 (F := Ideal) x0 x1 x2 x3 = Cert.Matryoshka.out (B := 4) (R := 4096) x0 x1 x2 x3 := by
  funext j
  unfold val_main_v5
  have hj2 : (j 2).val < 4096 := (j 2).isLt
  by_cases h0 : (j 2).val < 1024
  · rw [Cert.Matryoshka.out_of_lt _ _ _ _ j h0]
    refine (concatenate_apply_piece (t := S4x4096x4096) (2 : Fin 3) [⟨S4x4096x1024, (val_main_v1 (F := Ideal) x0 x1)⟩, ⟨S4x4096x1024, (val_main_v3 (F := Ideal) x0 x2)⟩, ⟨S4x4096x2048, (val_main_v4 (F := Ideal) x0 x3)⟩] concatenates_S4x4096x1024_S4x4096x1024_S4x4096x2048_S4x4096x4096_d2 j
      0 (by show (0 : Nat) < 3; omega) S4x4096x1024 (val_main_v1 (F := Ideal) x0 x1) rfl rfl 0 rfl
      (ix3 (j 0) (j 1) (⟨(j 2).val, h0⟩ : Fin 1024)) (fun b hb => ?_) ?_).trans (head0_apply x0 x1 _ _ _)
    · match b with
      | ⟨0, _⟩ => rfl
      | ⟨1, _⟩ => rfl
      | ⟨2, _⟩ => exact absurd rfl hb
    · show 0 + (j 2).val = (j 2).val; omega
  · by_cases h1 : (j 2).val < 2048
    · rw [Cert.Matryoshka.out_of_mid _ _ _ _ j h0 h1]
      refine (concatenate_apply_piece (t := S4x4096x4096) (2 : Fin 3) [⟨S4x4096x1024, (val_main_v1 (F := Ideal) x0 x1)⟩, ⟨S4x4096x1024, (val_main_v3 (F := Ideal) x0 x2)⟩, ⟨S4x4096x2048, (val_main_v4 (F := Ideal) x0 x3)⟩] concatenates_S4x4096x1024_S4x4096x1024_S4x4096x2048_S4x4096x4096_d2 j
        1 (by show (1 : Nat) < 3; omega) S4x4096x1024 (val_main_v3 (F := Ideal) x0 x2) rfl rfl 1024 rfl
        (ix3 (j 0) (j 1) (⟨(j 2).val - 1024, by omega⟩ : Fin 1024)) (fun b hb => ?_) ?_).trans (head1_apply x0 x2 _ _ _)
      · match b with
        | ⟨0, _⟩ => rfl
        | ⟨1, _⟩ => rfl
        | ⟨2, _⟩ => exact absurd rfl hb
      · show 1024 + ((j 2).val - 1024) = (j 2).val; omega
    · rw [Cert.Matryoshka.out_of_ge _ _ _ _ j h0 h1]
      refine (concatenate_apply_piece (t := S4x4096x4096) (2 : Fin 3) [⟨S4x4096x1024, (val_main_v1 (F := Ideal) x0 x1)⟩, ⟨S4x4096x1024, (val_main_v3 (F := Ideal) x0 x2)⟩, ⟨S4x4096x2048, (val_main_v4 (F := Ideal) x0 x3)⟩] concatenates_S4x4096x1024_S4x4096x1024_S4x4096x2048_S4x4096x4096_d2 j
        2 (by show (2 : Nat) < 3; omega) S4x4096x2048 (val_main_v4 (F := Ideal) x0 x3) rfl rfl 2048 rfl
        (ix3 (j 0) (j 1) (⟨(j 2).val - 2048, by omega⟩ : Fin 2048)) (fun b hb => ?_) ?_).trans (head2_apply x0 x3 _ _ _)
      · match b with
        | ⟨0, _⟩ => rfl
        | ⟨1, _⟩ => rfl
        | ⟨2, _⟩ => exact absurd rfl hb
      · show 2048 + ((j 2).val - 2048) = (j 2).val; omega

end Cert.ReferenceIdeal.RefValue

end
-- ==== Proof.lean ====
/-
  The nested ("matryoshka") linear layer: three heads read the first 1024, the first 2048 and all 4096 features of each
  row of x and project them with their own (out_features, in_features) weight matrices; the three results lie side by
  side along the last axis.

  The kernel works on blocks of 128 rows: it views a block as a matrix, takes its column prefixes, and multiplies each
  against the transpose of its weight matrix into a zero accumulator (the changes of float format around the products
  are the identity on the extended reals). The reference slices x, contracts each slice with its weight matrix on the
  host, and concatenates. Read at an output index (b, s, o), both are the inner product of a prefix of the row
  x(b, s, ·) with one row of one weight matrix — the same finite sum of the same products — so the two results are
  equal entry by entry, with no use of finiteness.

    Spec.lean        the layer as one function of its arguments, for any number of rows
    LibDotNT.lean    a product against a transposed right operand, read at an entry, as a sum
    Payload.lean     each value the kernel body stores, read at an entry, is a head of the layer
    BlockValue.lean  the three stores tile the output block: it ends at the layer of the loaded blocks
    ArrayValue.lean  the blocks tile the result: the kernel's run ends at the layer of the arguments
    RefValue.lean    the reference's contractions and concatenation are the layer
-/
import proofs.«175755_j59820304498925_1_alg».proof.Defs
import proofs.«175755_j59820304498925_1_alg».proof.Proof.Gen.Kernel
import proofs.«175755_j59820304498925_1_alg».proof.Proof.Gen.Kernel.Skeleton
import proofs.«175755_j59820304498925_1_alg».proof.Proof.Gen.Kernel.Launch
import proofs.«175755_j59820304498925_1_alg».proof.Proof.Gen.Kernel.Points
import proofs.«175755_j59820304498925_1_alg».proof.Proof.Gen.Kernel.Frame
import proofs.«175755_j59820304498925_1_alg».proof.Proof.Gen.KernelIdeal
import proofs.«175755_j59820304498925_1_alg».proof.Proof.Gen.KernelIdeal.Skeleton
import proofs.«175755_j59820304498925_1_alg».proof.Proof.Gen.KernelIdeal.Launch
import proofs.«175755_j59820304498925_1_alg».proof.Proof.Gen.KernelIdeal.Points
import proofs.«175755_j59820304498925_1_alg».proof.Proof.Gen.KernelIdeal.Frame
import proofs.«175755_j59820304498925_1_alg».proof.Proof.Gen.ReferenceIdeal
import proofs.«175755_j59820304498925_1_alg».proof.Proof.Gen.Pre_finite_inputs
import proofs.«175755_j59820304498925_1_alg».proof.Proof.Gen.KernelIdeal.Value
import proofs.«175755_j59820304498925_1_alg».proof.Proof.Gen.ReferenceIdeal.Run
import proofs.«175755_j59820304498925_1_alg».proof.Proof.Gen.ReferenceIdeal.Read
import proofs.«175755_j59820304498925_1_alg».proof.Proof.ArrayValue
import proofs.«175755_j59820304498925_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the nested layer of their arguments, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
